-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1376 : Shape := ⟨2, ![4096, 1376]⟩
abbrev S4096x11008 : Shape := ⟨2, ![4096, 11008]⟩
abbrev S4096x1 : Shape := ⟨2, ![4096, 1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn_part1 {F : FTy → Type} [FloatOps F] (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  main_v18

def fn {F : FTy → Type} [FloatOps F] (main_arg0 : IVec S4096x1376 32) (main_arg1 : IVec S4096x1376 32) (main_arg2 : IVec S4096x11008 32) (main_arg3 : FVec F S4096x1 .f32) (main_arg4 : FVec F S4096x1 .f32) (main_arg5 : FVec F S4096x1 .f32) (main_arg6 : FVec F S4096x1 .f32) : IVec S_ 1 :=
  let main_v0 : FVec F S4096x1 .f32 := Host.absf main_arg3
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg4
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg5
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg6
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_v13 main_v16
-- ==== Kernel.lean ====
abbrev S4096x1376 : Shape := ⟨2, ![4096, 1376]⟩
abbrev S4096x11008 : Shape := ⟨2, ![4096, 11008]⟩
abbrev S4096x1 : Shape := ⟨2, ![4096, 1]⟩
abbrev S4096x1376x8 : Shape := ⟨3, ![4096, 1376, 8]⟩
abbrev S4096x8x1376 : Shape := ⟨3, ![4096, 8, 1376]⟩
abbrev S128x1376 : Shape := ⟨2, ![128, 1376]⟩
abbrev S128x8x1376 : Shape := ⟨3, ![128, 8, 1376]⟩
abbrev S128x1 : Shape := ⟨2, ![128, 1]⟩
abbrev S128x1x1376 : Shape := ⟨3, ![128, 1, 1376]⟩

abbrev nBuf : Space → Nat
  | .hbm => 12
  | .vmem => 16
  | .smem => 0
  | _ => 0

abbrev bufTy : (tb : Table) → Fin (tcTables nBuf tb) → BufTy
  | .hbm, ⟨0, _⟩ => ⟨S4096x1376, .i32⟩
  | .hbm, ⟨1, _⟩ => ⟨S4096x1376, .i32⟩
  | .hbm, ⟨2, _⟩ => ⟨S4096x11008, .i32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1376x8, .i32⟩
  | .hbm, ⟨8, _⟩ => ⟨S4096x8x1376, .i32⟩
  | .hbm, ⟨9, _⟩ => ⟨S4096x8x1376, .f32⟩
  | .hbm, ⟨10, _⟩ => ⟨S4096x1376x8, .f32⟩
  | .hbm, ⟨11, _⟩ => ⟨S4096x11008, .f32⟩
  | .local _ .vmem, ⟨0, _⟩ => ⟨S128x1376, .i32⟩
  | .local _ .vmem, ⟨1, _⟩ => ⟨S128x1376, .i32⟩
  | .local _ .vmem, ⟨2, _⟩ => ⟨S128x1376, .i32⟩
  | .local _ .vmem, ⟨3, _⟩ => ⟨S128x1376, .i32⟩
  | .local _ .vmem, ⟨4, _⟩ => ⟨S128x8x1376, .i32⟩
  | .local _ .vmem, ⟨5, _⟩ => ⟨S128x8x1376, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x8x1376, .f32⟩
  | .local _ .vmem, ⟨15, _⟩ => ⟨S128x8x1376, .f32⟩
  | _, _ => ⟨S4096x1376, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1376 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1376 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x1376 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x11008_S4096x1376x8 : S4096x11008.ShapeCasts S4096x1376x8
  transposes_S4096x1376x8_S4096x8x1376_0_2_1 : S4096x1376x8.Transposes [0, 2, 1] S4096x8x1376
  inb_S128x1376_S128x1376_0_0 : ∀ a, (![0, 0] : Fin 2 → Nat) a + S128x1376.size a ≤ S128x1376.size a
  h_S128x1376 : 0 < S128x1376.numel
  inb_S128x1_S128x1_0_0 : ∀ a, (![0, 0] : Fin 2 → Nat) a + S128x1.size a ≤ S128x1.size a
  h_S128x1 : 0 < S128x1.numel
  broadcasts_S128x1_S128x1376 : S128x1.Broadcasts S128x1376
  inb_S128x8x1376_S128x1x1376_0_0_0 : ∀ a, (![0, 0, 0] : Fin 3 → Nat) a + S128x1x1376.size a ≤ S128x8x1376.size a
  h_S128x1x1376 : 0 < S128x1x1376.numel
  shapeCasts_S128x1x1376_S128x1376 : S128x1x1376.ShapeCasts S128x1376
  shapeCasts_S128x1376_S128x1x1376 : S128x1376.ShapeCasts S128x1x1376
  inb_S128x8x1376_S128x1x1376_0_1_0 : ∀ a, (![0, 1, 0] : Fin 3 → Nat) a + S128x1x1376.size a ≤ S128x8x1376.size a
  inb_S128x8x1376_S128x1x1376_0_2_0 : ∀ a, (![0, 2, 0] : Fin 3 → Nat) a + S128x1x1376.size a ≤ S128x8x1376.size a
  inb_S128x8x1376_S128x1x1376_0_3_0 : ∀ a, (![0, 3, 0] : Fin 3 → Nat) a + S128x1x1376.size a ≤ S128x8x1376.size a
  inb_S128x8x1376_S128x1x1376_0_4_0 : ∀ a, (![0, 4, 0] : Fin 3 → Nat) a + S128x1x1376.size a ≤ S128x8x1376.size a
  inb_S128x8x1376_S128x1x1376_0_5_0 : ∀ a, (![0, 5, 0] : Fin 3 → Nat) a + S128x1x1376.size a ≤ S128x8x1376.size a
  inb_S128x8x1376_S128x1x1376_0_6_0 : ∀ a, (![0, 6, 0] : Fin 3 → Nat) a + S128x1x1376.size a ≤ S128x8x1376.size a
  inb_S128x8x1376_S128x1x1376_0_7_0 : ∀ a, (![0, 7, 0] : Fin 3 → Nat) a + S128x1x1376.size a ≤ S128x8x1376.size a
  transposes_S4096x8x1376_S4096x1376x8_0_2_1 : S4096x8x1376.Transposes [0, 2, 1] S4096x1376x8
  shapeCasts_S4096x1376x8_S4096x11008 : S4096x1376x8.ShapeCasts S4096x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1376.size a ≤ S4096x1376.size a
  hwx0_0 : ∀ i : grid0.Coords, EltTy.bits .i32 = 32 ∨ (Rect.block (s := S4096x1376) S128x1376.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1376.size a ≤ S4096x1376.size a
  hwx0_1 : ∀ i : grid0.Coords, EltTy.bits .i32 = 32 ∨ (Rect.block (s := S4096x1376) S128x1376.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8x1376.size a ≤ S4096x8x1376.size a
  hwx0_2 : ∀ i : grid0.Coords, EltTy.bits .i32 = 32 ∨ (Rect.block (s := S4096x8x1376) S128x8x1376.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8x1376.size a ≤ S4096x8x1376.size a
  hwx0_7 : ∀ i : grid0.Coords, EltTy.bits .f32 = 32 ∨ (Rect.block (s := S4096x8x1376) S128x8x1376.size (cc0_transform_7 i) (hinb0_7 i)).WholeWords (EltTy.packing .f32)

variable [Facts₀]

abbrev win0_0 : Pipeline.Window sig grid0 :=
  Pipeline.Window.ofSpec (Memref.whole main_arg0) S128x1376.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1376.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x8x1376.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x8x1376.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1376 : Shape := ⟨2, ![4096, 1376]⟩
abbrev S4096x11008 : Shape := ⟨2, ![4096, 11008]⟩
abbrev S4096x1 : Shape := ⟨2, ![4096, 1]⟩
abbrev S8 : Shape := ⟨1, ![8]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1376, .i32⟩
  | .hbm, ⟨1, _⟩ => ⟨S4096x1376, .i32⟩
  | .hbm, ⟨2, _⟩ => ⟨S4096x11008, .i32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S8, .i32⟩
  | .hbm, ⟨8, _⟩ => ⟨S4096x1376x1, .i32⟩
  | .hbm, ⟨9, _⟩ => ⟨S1x1x8, .i32⟩
  | .hbm, ⟨10, _⟩ => ⟨S4096x1376x8, .i32⟩
  | .hbm, ⟨11, _⟩ => ⟨S4096x1376x8, .i32⟩
  | .hbm, ⟨12, _⟩ => ⟨S4096x1376x8, .i32⟩
  | .hbm, ⟨13, _⟩ => ⟨S_, .i32⟩
  | .hbm, ⟨14, _⟩ => ⟨S4096x1376x8, .i32⟩
  | .hbm, ⟨15, _⟩ => ⟨S4096x1376x8, .i32⟩
  | .hbm, ⟨16, _⟩ => ⟨S4096x11008, .i32⟩
  | .hbm, ⟨17, _⟩ => ⟨S_, .i32⟩
  | .hbm, ⟨18, _⟩ => ⟨S4096x11008, .i32⟩
  | .hbm, ⟨19, _⟩ => ⟨S4096x11008, .i1⟩
  | .hbm, ⟨20, _⟩ => ⟨S_, .f32⟩
  | .hbm, ⟨21, _⟩ => ⟨S_, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | .hbm, ⟨32, _⟩ => ⟨S4096x11008, .f32⟩
  | .hbm, ⟨33, _⟩ => ⟨S4096x11008, .f32⟩
  | .hbm, ⟨34, _⟩ => ⟨S4096x11008, .f32⟩
  | .hbm, ⟨35, _⟩ => ⟨S4096x1376x1, .i32⟩
  | .hbm, ⟨36, _⟩ => ⟨S1x1x8, .i32⟩
  | .hbm, ⟨37, _⟩ => ⟨S4096x1376x8, .i32⟩
  | .hbm, ⟨38, _⟩ => ⟨S4096x1376x8, .i32⟩
  | .hbm, ⟨39, _⟩ => ⟨S4096x1376x8, .i32⟩
  | .hbm, ⟨40, _⟩ => ⟨S_, .i32⟩
  | .hbm, ⟨41, _⟩ => ⟨S4096x1376x8, .i32⟩
  | .hbm, ⟨42, _⟩ => ⟨S4096x1376x8, .i32⟩
  | .hbm, ⟨43, _⟩ => ⟨S4096x11008, .i32⟩
  | .hbm, ⟨44, _⟩ => ⟨S_, .i32⟩
  | .hbm, ⟨45, _⟩ => ⟨S4096x11008, .i32⟩
  | .hbm, ⟨46, _⟩ => ⟨S4096x11008, .i1⟩
  | .hbm, ⟨47, _⟩ => ⟨S4096x11008, .i1⟩
  | .hbm, ⟨48, _⟩ => ⟨S4096x11008, .f32⟩
  | _, _ => ⟨S4096x1376, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S_S4096x11008 : S_.BroadcastsInDim S4096x11008 (![] : Fin 0 → Fin S4096x11008.rank)
  bcast_S4096x1_S4096x11008_0_1 : S4096x1.BroadcastsInDim S4096x11008 (![0, 1] : Fin 2 → Fin S4096x11008.rank)

variable [Facts₀]

class Facts : Prop extends Facts₀ where

variable [Facts]
-- ==== Proof.Spec.lean ====
/-
  One element of the dequantised weight matrix, and the whole matrix as a function of the seven argument arrays.

  Row `o`, column `j` of the result belongs to byte column `j / 8` and to bit-phase `j % 8` of that byte, most
  significant bit first: phase `b` is bit `7 - b`. Where the mask byte has that bit set the element is the one-bit
  weight, `±1 · binary_scale o + mean o` (the sign `-1` when the packed byte's bit is clear, `+1` when it is set);
  where the mask bit is clear it is the outlier weight `salient_scale o · (salient o j − salient_zero o)`, the
  integer `salient o j` read as a signed number. Every float operation is taken once, in this order, so the
  function is the same term at any reading of the floats and no law of arithmetic is needed to compare two
  programs that both compute it.
-/
import Idealize.ShloMosaic.PureOps
import Idealize.ShloMosaic.Lib.ValueIdx

noncomputable section

namespace Cert.BitPlanes

open Idealize.ShloMosaic Idealize.ShloMosaic.ValueIdx

variable {F : FTy → Type} [FloatOps F]

/-- The shift that brings bit-phase `b` of a byte (bit `7 - b`) down to bit 0. -/
def shiftOf : Fin 8 → BitVec 32 := fun
  | 0 => 7#32 | 1 => 6#32 | 2 => 5#32 | 3 => 4#32 | 4 => 3#32 | 5 => 2#32 | 6 => 1#32 | 7 => 0#32

/-- Bit-phase `b` of the word `x` as the word 0 or 1: an arithmetic shift right, then the lowest bit. -/
def bitAt (x : BitVec 32) (b : Fin 8) : BitVec 32 := IntOp.andi (IntOp.shrsi .host x (shiftOf b)) 1#32

/-- A 32-bit arithmetic shift right is the same function of its two words on the host and on the vector unit: below the
    width both are the shift, and from the width on both give the word of sign bits. -/
theorem shrsi_host (x y : BitVec 32) : IntOp.shrsi .host x y = IntOp.shrsi .vector x y := by
  simp [IntOp.shrsi, IntOp.cornerWord]

/-- One element from the packed byte `u`, the mask byte `v`, the bit-phase `b`, the outlier integer `q` and the row's
    four floats. -/
def cell (u v : BitVec 32) (b : Fin 8) (q : BitVec 32) (bs mean ss sz : F .f32) : F .f32 :=
  Scalar.select (IntOp.cmpi .ne (bitAt v b) 0#32)
    (FloatOps.addf (FloatOps.mulf (Scalar.select (IntOp.cmpi .eq (bitAt u b) 0#32)
      (FloatOps.ofBits .f32 0xBF800000#32) (FloatOps.ofBits .f32 0x3F800000#32)) bs) mean)
    (FloatOps.mulf ss (FloatOps.subf (FloatOps.sitofp .f32 q) sz))

/-- The byte column of weight column `j`. -/
def byteCol (j : Fin 11008) : Fin 1376 := ⟨j.val / 8, by have := j.isLt; omega⟩
/-- The bit-phase of weight column `j`. -/
def phase (j : Fin 11008) : Fin 8 := ⟨j.val % 8, Nat.mod_lt _ (by decide)⟩

/-- Row `o`, column `j` of the result. -/
def elt (comp mask : IVec ⟨2, ![4096, 1376]⟩ 32) (sal : IVec ⟨2, ![4096, 11008]⟩ 32)
    (bs mean ss sz : FVec F ⟨2, ![4096, 1]⟩ .f32) (o : Fin 4096) (j : Fin 11008) : F .f32 :=
  cell (comp (ix2 o (byteCol j))) (mask (ix2 o (byteCol j))) (phase j) (sal (ix2 o j))
    (bs (ix2 o 0)) (mean (ix2 o 0)) (ss (ix2 o 0)) (sz (ix2 o 0))

/-- The whole result. -/
def G (comp mask : IVec ⟨2, ![4096, 1376]⟩ 32) (sal : IVec ⟨2, ![4096, 11008]⟩ 32)
    (bs mean ss sz : FVec F ⟨2, ![4096, 1]⟩ .f32) : FVec F ⟨2, ![4096, 11008]⟩ .f32 :=
  fun i => elt comp mask sal bs mean ss sz (i 0) (i 1)

theorem G_apply (comp mask : IVec ⟨2, ![4096, 1376]⟩ 32) (sal : IVec ⟨2, ![4096, 11008]⟩ 32)
    (bs mean ss sz : FVec F ⟨2, ![4096, 1]⟩ .f32) (o : Fin 4096) (j : Fin 11008) :
    G comp mask sal bs mean ss sz (ix2 o j) = elt comp mask sal bs mean ss sz o j := rfl

/-- The same matrix laid out phase-major, `[row, phase, byte column]`, over the outlier integers in that layout. -/
def planes (comp mask : IVec ⟨2, ![4096, 1376]⟩ 32) (salpm : IVec ⟨3, ![4096, 8, 1376]⟩ 32)
    (bs mean ss sz : FVec F ⟨2, ![4096, 1]⟩ .f32) : FVec F ⟨3, ![4096, 8, 1376]⟩ .f32 :=
  fun y => cell (comp (ix2 (y 0) (y 2))) (mask (ix2 (y 0) (y 2))) (y 1) (salpm y)
    (bs (ix2 (y 0) 0)) (mean (ix2 (y 0) 0)) (ss (ix2 (y 0) 0)) (sz (ix2 (y 0) 0))

/-- A weight column is its byte column times eight plus its phase. -/
theorem col_split (j : Fin 11008) : (byteCol j).val * 8 + (phase j).val = j.val := by
  show j.val / 8 * 8 + j.val % 8 = j.val
  omega

end Cert.BitPlanes

end
-- ==== Proof.KBlock.lean ====
/-
  What one grid point leaves in the output block, as one function of the point's input blocks.

  The body handles the eight bit-phases one after the other. For phase `b` it shifts the packed bytes and the mask bytes
  right by `7 - b`, keeps the lowest bit, forms the two candidate weights row by row and selects between them, and stores
  the `[128, 1376]` result as the slab `[:, b, :]` of the `[128, 8, 1376]` block. The eight stores are the same vector
  expression at eight shift words (`phaseVec`); read at an element it is `cell` of the specification (`phaseVec_apply`:
  the row broadcasts and the two casts that drop and add the unit middle axis are read where they send an index, every
  other operation is elementwise), and the eight slabs tile the block, so the block is ONE function of its index
  (`slab`): element `(p, b, q)` is `cell` of the packed and mask bytes at `(p, q)`, phase `b`, the outlier integer at
  `(p, b, q)` and row `p`'s four floats.
-/
import proofs.«414587_j68539088109781_2_alg».proof.Proof.Spec
import proofs.«414587_j68539088109781_2_alg».proof.Proof.Gen.KernelIdeal.Frame
import Idealize.ShloMosaic.Lib.Pipeline.Value
import Idealize.ShloMosaic.Lib.ValueIdx

set_option maxRecDepth 16384

noncomputable section

namespace Cert.KernelIdeal.Block

open Idealize.ShloMosaic Idealize.ShloMosaic.ValueIdx Cert.KernelIdeal Cert.KernelIdeal.Gen Cert.BitPlanes

variable {F : FTy → Type} [FloatOps F]

/-! ## One phase's slab as the body computes it -/

/-- The slab of one bit-phase from the shift word `s`, the packed bytes `v0`, the mask bytes `v1`, the rows' four
    floats and the phase's outlier integers `ld`: the body's operations, in its order. -/
def phaseVec (s : BitVec 32) (v0 v1 : Vec F S128x1376 .i32) (v2 v3 v4 v5 : Vec F S128x1 .f32)
    (ld : Vec F S128x1x1376 .i32) : FVec F S128x1x1376 .f32 :=
  shapeCast S128x1x1376
    (select (cmpi .ne (andi (shrsi v1 (broadcast S128x1376 s)) (broadcast S128x1376 1#32)) (broadcast S128x1376 0#32))
      (addf (mulf (select (cmpi .eq (andi (shrsi v0 (broadcast S128x1376 s)) (broadcast S128x1376 1#32)) (broadcast S128x1376 0#32))
            (broadcast S128x1376 (Scalar.ofBits .f32 0xBF800000#32)) (broadcast S128x1376 (Scalar.ofBits .f32 0x3F800000#32)))
          (broadcastTo S128x1376 v2 broadcasts_S128x1_S128x1376))
        (broadcastTo S128x1376 v3 broadcasts_S128x1_S128x1376))
      (mulf (broadcastTo S128x1376 v4 broadcasts_S128x1_S128x1376)
        (subf (sitofp .f32 (shapeCast S128x1376 ld shapeCasts_S128x1x1376_S128x1376))
          (broadcastTo S128x1376 v5 broadcasts_S128x1_S128x1376))))
    shapeCasts_S128x1376_S128x1x1376

/-- Each store's payload is that expression at its phase's shift word: the payloads only name its subterms. -/
theorem pay_phase0 (v0 v1 : Vec F S128x1376 .i32) (v2 v3 v4 v5 : Vec F S128x1 .f32) (ld : Vec F S128x1x1376 .i32) :
    k0_pay3 (k0_pay2 v0 v1 v2 v3 v4 v5 ld) = phaseVec 7#32 v0 v1 v2 v3 v4 v5 ld := rfl
theorem pay_phase1 (v0 v1 : Vec F S128x1376 .i32) (v2 v3 v4 v5 : Vec F S128x1 .f32) (ld : Vec F S128x1x1376 .i32) :
    k0_pay4 v0 v1 v2 v3 v4 v5 ld = phaseVec 6#32 v0 v1 v2 v3 v4 v5 ld := rfl
theorem pay_phase2 (v0 v1 : Vec F S128x1376 .i32) (v2 v3 v4 v5 : Vec F S128x1 .f32) (ld : Vec F S128x1x1376 .i32) :
    k0_pay8 v2 v3 v4 v5 (k0_pay5 (F := F) v0) (k0_pay6 (F := F) v1) k0_pay7 ld = phaseVec 5#32 v0 v1 v2 v3 v4 v5 ld := rfl
theorem pay_phase3 (v0 v1 : Vec F S128x1376 .i32) (v2 v3 v4 v5 : Vec F S128x1 .f32) (ld : Vec F S128x1x1376 .i32) :
    k0_pay11 v4 v5 (k0_pay9 (F := F) v1) (k0_pay10 v0 v2 v3) ld = phaseVec 4#32 v0 v1 v2 v3 v4 v5 ld := rfl
theorem pay_phase4 (v0 v1 : Vec F S128x1376 .i32) (v2 v3 v4 v5 : Vec F S128x1 .f32) (ld : Vec F S128x1x1376 .i32) :
    k0_pay13 (k0_pay12 v0 v1 v2 v3 v4 v5 ld) = phaseVec 3#32 v0 v1 v2 v3 v4 v5 ld := rfl
theorem pay_phase5 (v0 v1 : Vec F S128x1376 .i32) (v2 v3 v4 v5 : Vec F S128x1 .f32) (ld : Vec F S128x1x1376 .i32) :
    k0_pay14 v0 v1 v2 v3 v4 v5 ld = phaseVec 2#32 v0 v1 v2 v3 v4 v5 ld := rfl
theorem pay_phase6 (v0 v1 : Vec F S128x1376 .i32) (v2 v3 v4 v5 : Vec F S128x1 .f32) (ld : Vec F S128x1x1376 .i32) :
    k0_pay18 v2 v3 v4 v5 (k0_pay15 (F := F) v0) (k0_pay16 (F := F) v1) k0_pay17 ld = phaseVec 1#32 v0 v1 v2 v3 v4 v5 ld := rfl
theorem pay_phase7 (v0 v1 : Vec F S128x1376 .i32) (v2 v3 v4 v5 : Vec F S128x1 .f32) (ld : Vec F S128x1x1376 .i32) :
    k0_pay1 v4 v5 (k0_pay19 (F := F) v1) (k0_pay20 v0 v2 v3) ld = phaseVec 0#32 v0 v1 v2 v3 v4 v5 ld := rfl

/-! ## The layout operations of the expression, read at an element -/

/-- A per-row column broadcast along the row reads the row's entry. -/
theorem rowBcast_apply (v : Vec F S128x1 .f32) (h : S128x1.Broadcasts S128x1376) (p : Fin 128) (q : Fin 1376) :
    broadcastTo S128x1376 v h (ix2 p q) = v (ix2 p 0) :=
  broadcastTo_apply v h (ix2 p q) (ix2 p 0) (fun a => by
    match a with
    | ⟨0, _⟩ => rfl
    | ⟨1, _⟩ => rfl)

/-- Dropping the unit middle axis: `(p, q)` reads `(p, 0, q)`. -/
theorem dropMid_apply {α : Type} (w : S128x1x1376.Idx → α) (h : S128x1x1376.ShapeCasts S128x1376) (p : Fin 128) (q : Fin 1376) :
    shapeCast S128x1376 w h (ix2 p q) = w (ix3 p 0 q) :=
  shapeCast_apply w h (ix2 p q) (ix3 p 0 q) (by
    rw [Shape.rowMajor_val_three, Shape.rowMajor_val_two]
    show (p.val * 1 + 0) * 1376 + q.val = p.val * 1376 + q.val
    omega)

/-- Adding it back: `(p, 0, q)` reads `(p, q)`. -/
theorem addMid_apply {α : Type} (w : S128x1376.Idx → α) (h : S128x1376.ShapeCasts S128x1x1376) (p : Fin 128) (q : Fin 1376) :
    shapeCast S128x1x1376 w h (ix3 p 0 q) = w (ix2 p q) :=
  shapeCast_apply w h (ix3 p 0 q) (ix2 p q) (by
    rw [Shape.rowMajor_val_three, Shape.rowMajor_val_two]
    show p.val * 1376 + q.val = (p.val * 1 + 0) * 1376 + q.val
    omega)

/-- One element of a phase's slab. -/
theorem phaseVec_apply (s : BitVec 32) (v0 v1 : Vec F S128x1376 .i32) (v2 v3 v4 v5 : Vec F S128x1 .f32)
    (ld : Vec F S128x1x1376 .i32) (p : Fin 128) (q : Fin 1376) :
    phaseVec s v0 v1 v2 v3 v4 v5 ld (ix3 p 0 q)
      = Scalar.select (IntOp.cmpi .ne (IntOp.andi (IntOp.shrsi .vector (v1 (ix2 p q)) s) 1#32) 0#32)
          (FloatOps.addf (FloatOps.mulf (Scalar.select (IntOp.cmpi .eq (IntOp.andi (IntOp.shrsi .vector (v0 (ix2 p q)) s) 1#32) 0#32)
            (FloatOps.ofBits .f32 0xBF800000#32) (FloatOps.ofBits .f32 0x3F800000#32)) (v2 (ix2 p 0))) (v3 (ix2 p 0)))
          (FloatOps.mulf (v4 (ix2 p 0)) (FloatOps.subf (FloatOps.sitofp .f32 (ld (ix3 p 0 q))) (v5 (ix2 p 0)))) := by
  unfold phaseVec
  rw [addMid_apply]
  show Scalar.select (IntOp.cmpi .ne (IntOp.andi (IntOp.shrsi .vector (v1 (ix2 p q)) s) 1#32) 0#32)
      (FloatOps.addf (FloatOps.mulf (Scalar.select (IntOp.cmpi .eq (IntOp.andi (IntOp.shrsi .vector (v0 (ix2 p q)) s) 1#32) 0#32)
            (FloatOps.ofBits .f32 0xBF800000#32) (FloatOps.ofBits .f32 0x3F800000#32))
          (broadcastTo S128x1376 v2 broadcasts_S128x1_S128x1376 (ix2 p q)))
        (broadcastTo S128x1376 v3 broadcasts_S128x1_S128x1376 (ix2 p q)))
      (FloatOps.mulf (broadcastTo S128x1376 v4 broadcasts_S128x1_S128x1376 (ix2 p q))
        (FloatOps.subf (FloatOps.sitofp .f32 (shapeCast S128x1376 ld shapeCasts_S128x1x1376_S128x1376 (ix2 p q)))
          (broadcastTo S128x1376 v5 broadcasts_S128x1_S128x1376 (ix2 p q)))) = _
  rw [rowBcast_apply v2, rowBcast_apply v3, rowBcast_apply v4, rowBcast_apply v5, dropMid_apply ld]

/-! ## The block as one function of its index -/

/-- Element `(p, b, q)` of the output block from the input blocks. -/
def slab (x0 x1 : Vec F S128x1376 .i32) (x2 : Vec F S128x8x1376 .i32) (x3 x4 x5 x6 : Vec F S128x1 .f32) :
    FVec F S128x8x1376 .f32 :=
  fun y => cell (x0 (ix2 (y 0 : Fin 128) (y 2 : Fin 1376))) (x1 (ix2 (y 0 : Fin 128) (y 2 : Fin 1376))) (y 1 : Fin 8) (x2 y)
    (x3 (ix2 (y 0 : Fin 128) 0)) (x4 (ix2 (y 0 : Fin 128) 0)) (x5 (ix2 (y 0 : Fin 128) 0)) (x6 (ix2 (y 0 : Fin 128) 0))

/-- The slab of phase `k` is the block's function on the rectangle `[:, k, :]`. -/
theorem piece_eq (k : Nat) (hk : k < 8) (inb : ∀ a, (![0, k, 0] : Fin 3 → Nat) a + S128x1x1376.size a ≤ S128x8x1376.size a)
    (s : BitVec 32) (hs : s = shiftOf ⟨k, hk⟩)
    (x0 x1 : Vec F S128x1376 .i32) (x2 : Vec F S128x8x1376 .i32) (x3 x4 x5 x6 : Vec F S128x1 .f32) (x : S128x1x1376.Idx) :
    phaseVec s x0 x1 x3 x4 x5 x6 (View.ld x2 (Rect.unit (s := S128x8x1376) ![0, k, 0] S128x1x1376.size inb)) x
      = slab x0 x1 x2 x3 x4 x5 x6 ((Rect.unit (s := S128x8x1376) ![0, k, 0] S128x1x1376.size inb).emb x) := by
  obtain ⟨p, u, q, rfl⟩ : ∃ (p : Fin 128) (u : Fin 1) (q : Fin 1376), x = ix3 p u q := ⟨x 0, x 1, x 2, eq_ix3 x⟩
  obtain rfl : u = 0 := Subsingleton.elim _ _
  have he : (Rect.unit (s := S128x8x1376) ![0, k, 0] S128x1x1376.size inb).emb (ix3 p 0 q) = ix3 p ⟨k, hk⟩ q := by
    funext a; apply Fin.ext
    match a with
    | ⟨0, _⟩ => show 0 + 1 * p.val = p.val; omega
    | ⟨1, _⟩ => show k + 1 * 0 = k; omega
    | ⟨2, _⟩ => show 0 + 1 * q.val = q.val; omega
  rw [phaseVec_apply, he]
  subst hs
  show _ = cell (x0 (ix2 p q)) (x1 (ix2 p q)) ⟨k, hk⟩ (x2 (ix3 p ⟨k, hk⟩ q)) (x3 (ix2 p 0)) (x4 (ix2 p 0)) (x5 (ix2 p 0)) (x6 (ix2 p 0))
  unfold cell bitAt
  rw [shrsi_host, shrsi_host]
  have he' : (Rect.unit (s := S128x8x1376) ![0, k, 0] S128x1x1376.size inb).idx (ix3 p 0 q) = ix3 p ⟨k, hk⟩ q := he
  show Scalar.select _ _ (FloatOps.mulf (x5 (ix2 p 0)) (FloatOps.subf (FloatOps.sitofp .f32
    (x2 ((Rect.unit (s := S128x8x1376) ![0, k, 0] S128x1x1376.size inb).idx (ix3 p 0 q)))) (x6 (ix2 p 0)))) = _
  rw [he']

theorem hz2 : (![0, 0] : Fin 2 → Nat) = fun _ => 0 := funext fun a => by fin_cases a <;> rfl

/-- What the body leaves in the output block: the eight slabs tile it, each is `slab` on its rectangle. -/
theorem out_eq (x0 x1 : Vec F S128x1376 .i32) (x2 : Vec F S128x8x1376 .i32) (x3 x4 x5 x6 : Vec F S128x1 .f32) :
    out0_7 x0 x1 x2 x3 x4 x5 x6 = slab x0 x1 x2 x3 x4 x5 x6 := by
  funext y
  unfold out0_7
  simp only [View.ld_unit_zero (S := S128x1376) hz2, View.ld_unit_zero (S := S128x1) hz2]
  rw [pay_phase0, pay_phase1, pay_phase2, pay_phase3, pay_phase4, pay_phase5, pay_phase6, pay_phase7]
  refine View.canon_apply_of_pieces (slab x0 x1 x2 x3 x4 x5 x6) _ ?_ y (cover0_7 _ _ _ _ _ _ _ _ y)
  intro pc hpc
  simp only [List.mem_cons, List.mem_nil_iff, or_false] at hpc
  rcases hpc with rfl | rfl | rfl | rfl | rfl | rfl | rfl | rfl
  · exact piece_eq 7 (by decide) _ _ rfl x0 x1 x2 x3 x4 x5 x6
  · exact piece_eq 6 (by decide) _ _ rfl x0 x1 x2 x3 x4 x5 x6
  · exact piece_eq 5 (by decide) _ _ rfl x0 x1 x2 x3 x4 x5 x6
  · exact piece_eq 4 (by decide) _ _ rfl x0 x1 x2 x3 x4 x5 x6
  · exact piece_eq 3 (by decide) _ _ rfl x0 x1 x2 x3 x4 x5 x6
  · exact piece_eq 2 (by decide) _ _ rfl x0 x1 x2 x3 x4 x5 x6
  · exact piece_eq 1 (by decide) _ _ rfl x0 x1 x2 x3 x4 x5 x6
  · exact piece_eq 0 (by decide) _ _ rfl x0 x1 x2 x3 x4 x5 x6

end Cert.KernelIdeal.Block

end
-- ==== Proof.KFinal.lean ====
/-
  From one grid point's block to the whole output array.

  The grid has 32 points; point `t` takes rows `128 t … 128 t + 127` of every window: all `1376` byte columns of the two
  packed arrays, all eight phases and all byte columns of the phase-major outlier integers, the one column of the four
  per-row float arrays, and it writes the same rows of the phase-major output. So an index `(p, b, q)` of point `t`'s
  output block is the array's index `(128 t + p, b, q)`, and each input block read at the block's own index is its array
  read at the matching array index. The block function of Proof/KBlock.lean, whose element depends only on entries of
  row `p` of the input blocks, is therefore the restriction to the block of ONE function of the whole arrays, the
  phase-major matrix `planes`. Row `r` of the output lies in the block of point `r / 128`, so the blocks cover the
  array, and after the last write-back the array is `planes` of the arrays the region found.
-/
import proofs.«414587_j68539088109781_2_alg».proof.Proof.KBlock

set_option maxRecDepth 16384

noncomputable section

namespace Cert.KernelIdeal.Planes

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.BitPlanes Cert.KernelIdeal.Block

variable {F : FTy → Type} [FloatOps F]
variable (m : (ℓ : Loc nD τ sig) → Buf (Elt F) ℓ) (ρ : Dev nD → PrngReg)

/-- The windows' block indices, decided over the 32 grid points: every window's first block index is the point's number, every other block index is 0. -/
theorem idx_facts : ∀ t : Fin cfg0.N,
    win0_7.index t (1 : Fin 3) = 0 ∧ win0_7.index t (2 : Fin 3) = 0
    ∧ win0_0.index t (0 : Fin 2) = win0_7.index t (0 : Fin 3) ∧ win0_0.index t (1 : Fin 2) = 0
    ∧ win0_1.index t (0 : Fin 2) = win0_7.index t (0 : Fin 3) ∧ win0_1.index t (1 : Fin 2) = 0
    ∧ win0_2.index t (0 : Fin 3) = win0_7.index t (0 : Fin 3) ∧ win0_2.index t (1 : Fin 3) = 0 ∧ win0_2.index t (2 : Fin 3) = 0
    ∧ win0_3.index t (0 : Fin 2) = win0_7.index t (0 : Fin 3) ∧ win0_3.index t (1 : Fin 2) = 0
    ∧ win0_4.index t (0 : Fin 2) = win0_7.index t (0 : Fin 3) ∧ win0_4.index t (1 : Fin 2) = 0
    ∧ win0_5.index t (0 : Fin 2) = win0_7.index t (0 : Fin 3) ∧ win0_5.index t (1 : Fin 2) = 0
    ∧ win0_6.index t (0 : Fin 2) = win0_7.index t (0 : Fin 3) ∧ win0_6.index t (1 : Fin 2) = 0
    ∧ win0_7.index t (0 : Fin 3) = t.val :=
  (by decide +kernel : ∀ t : Fin grid0.N, _)

/-- A grid point's number is below 32. -/
theorem N32 (t : Fin cfg0.N) : t.val < 32 := lt_of_lt_of_eq t.isLt N_0

/-- The array row of row `p` of grid point `t`'s block. -/
def rowOf (t : Fin cfg0.N) (p : Fin 128) : Fin 4096 := ⟨t.val * 128 + p.val, by have := N32 t; have := p.isLt; omega⟩

/-- At an index `(p, b, q)` of point `t`'s output block, the block function of the point's input blocks is `planes` of the
    arrays at the array index `(128 t + p, b, q)`: each input block is read where the output's rectangle says. -/
theorem flushed_pt (c : Dev nD) (t : Fin cfg0.N) (y : S128x8x1376.Idx) :
    slab (iblk m c 0 t) (iblk m c 1 t) (iblk m c 2 t) (iblk m c 3 t) (iblk m c 4 t) (iblk m c 5 t) (iblk m c 6 t) y
      = planes (V m c main_arg0) (V m c main_arg1) (V m c main_v1) (V m c main_arg3) (V m c main_arg4) (V m c main_arg5) (V m c main_arg6)
          (((cfg0.win 7).blk t).view.emb y) := by
  obtain ⟨p, b, q, rfl⟩ : ∃ (p : Fin 128) (b : Fin 8) (q : Fin 1376), y = ix3 p b q := ⟨y 0, y 1, y 2, eq_ix3 y⟩
  obtain ⟨e71, e72, e00, e01, e10, e11, e20, e21, e22, e30, e31, e40, e41, e50, e51, e60, e61, e7t⟩ := idx_facts t
  have e7 : ((cfg0.win 7).blk t).view.emb (ix3 p b q) = ix3 (rowOf t p) b q := by
    funext a; apply Fin.ext
    match a with
    | ⟨0, _⟩ => show win0_7.index t (0 : Fin 3) * 128 + 1 * p.val = t.val * 128 + p.val; omega
    | ⟨1, _⟩ => show win0_7.index t (1 : Fin 3) * 8 + 1 * b.val = b.val; omega
    | ⟨2, _⟩ => show win0_7.index t (2 : Fin 3) * 1376 + 1 * q.val = q.val; omega
  rw [e7]
  have r0 : iblk m c 0 t (ix2 p q) = V m c main_arg0 (ix2 (rowOf t p) q) := by
    show V m c main_arg0 (((cfg0.win 0).blk t).view.emb (ix2 p q)) = _
    refine congrArg (V m c main_arg0) ?_
    funext a; apply Fin.ext
    match a with
    | ⟨0, _⟩ => show win0_0.index t (0 : Fin 2) * 128 + 1 * p.val = t.val * 128 + p.val; omega
    | ⟨1, _⟩ => show win0_0.index t (1 : Fin 2) * 1376 + 1 * q.val = q.val; omega
  have r1 : iblk m c 1 t (ix2 p q) = V m c main_arg1 (ix2 (rowOf t p) q) := by
    show V m c main_arg1 (((cfg0.win 1).blk t).view.emb (ix2 p q)) = _
    refine congrArg (V m c main_arg1) ?_
    funext a; apply Fin.ext
    match a with
    | ⟨0, _⟩ => show win0_1.index t (0 : Fin 2) * 128 + 1 * p.val = t.val * 128 + p.val; omega
    | ⟨1, _⟩ => show win0_1.index t (1 : Fin 2) * 1376 + 1 * q.val = q.val; omega
  have r2 : iblk m c 2 t (ix3 p b q) = V m c main_v1 (ix3 (rowOf t p) b q) := by
    show V m c main_v1 (((cfg0.win 2).blk t).view.emb (ix3 p b q)) = _
    refine congrArg (V m c main_v1) ?_
    funext a; apply Fin.ext
    match a with
    | ⟨0, _⟩ => show win0_2.index t (0 : Fin 3) * 128 + 1 * p.val = t.val * 128 + p.val; omega
    | ⟨1, _⟩ => show win0_2.index t (1 : Fin 3) * 8 + 1 * b.val = b.val; omega
    | ⟨2, _⟩ => show win0_2.index t (2 : Fin 3) * 1376 + 1 * q.val = q.val; omega
  have r3 : iblk m c 3 t (ix2 p 0) = V m c main_arg3 (ix2 (rowOf t p) 0) := by
    show V m c main_arg3 (((cfg0.win 3).blk t).view.emb (ix2 p 0)) = _
    refine congrArg (V m c main_arg3) ?_
    funext a; apply Fin.ext
    match a with
    | ⟨0, _⟩ => show win0_3.index t (0 : Fin 2) * 128 + 1 * p.val = t.val * 128 + p.val; omega
    | ⟨1, _⟩ => show win0_3.index t (1 : Fin 2) * 1 + 1 * 0 = 0; omega
  have r4 : iblk m c 4 t (ix2 p 0) = V m c main_arg4 (ix2 (rowOf t p) 0) := by
    show V m c main_arg4 (((cfg0.win 4).blk t).view.emb (ix2 p 0)) = _
    refine congrArg (V m c main_arg4) ?_
    funext a; apply Fin.ext
    match a with
    | ⟨0, _⟩ => show win0_4.index t (0 : Fin 2) * 128 + 1 * p.val = t.val * 128 + p.val; omega
    | ⟨1, _⟩ => show win0_4.index t (1 : Fin 2) * 1 + 1 * 0 = 0; omega
  have r5 : iblk m c 5 t (ix2 p 0) = V m c main_arg5 (ix2 (rowOf t p) 0) := by
    show V m c main_arg5 (((cfg0.win 5).blk t).view.emb (ix2 p 0)) = _
    refine congrArg (V m c main_arg5) ?_
    funext a; apply Fin.ext
    match a with
    | ⟨0, _⟩ => show win0_5.index t (0 : Fin 2) * 128 + 1 * p.val = t.val * 128 + p.val; omega
    | ⟨1, _⟩ => show win0_5.index t (1 : Fin 2) * 1 + 1 * 0 = 0; omega
  have r6 : iblk m c 6 t (ix2 p 0) = V m c main_arg6 (ix2 (rowOf t p) 0) := by
    show V m c main_arg6 (((cfg0.win 6).blk t).view.emb (ix2 p 0)) = _
    refine congrArg (V m c main_arg6) ?_
    funext a; apply Fin.ext
    match a with
    | ⟨0, _⟩ => show win0_6.index t (0 : Fin 2) * 128 + 1 * p.val = t.val * 128 + p.val; omega
    | ⟨1, _⟩ => show win0_6.index t (1 : Fin 2) * 1 + 1 * 0 = 0; omega
  show cell (iblk m c 0 t (ix2 p q)) (iblk m c 1 t (ix2 p q)) b (iblk m c 2 t (ix3 p b q))
      (iblk m c 3 t (ix2 p 0)) (iblk m c 4 t (ix2 p 0)) (iblk m c 5 t (ix2 p 0)) (iblk m c 6 t (ix2 p 0))
    = cell (V m c main_arg0 (ix2 (rowOf t p) q)) (V m c main_arg1 (ix2 (rowOf t p) q)) b (V m c main_v1 (ix3 (rowOf t p) b q))
      (V m c main_arg3 (ix2 (rowOf t p) 0)) (V m c main_arg4 (ix2 (rowOf t p) 0)) (V m c main_arg5 (ix2 (rowOf t p) 0)) (V m c main_arg6 (ix2 (rowOf t p) 0))
  rw [r0, r1, r2, r3, r4, r5, r6]

/-- What point `t` writes back is block `t` of `planes` of the arrays as the region finds them. -/
theorem flushed_eq (c : Dev nD) (t : Fin cfg0.N) :
    (dats m 0 c).flushed 7 t = ((cfg0.win 7).blk t).view.read (Elt F)
      (planes (V m c main_arg0) (V m c main_arg1) (V m c main_v1) (V m c main_arg3) (V m c main_arg4) (V m c main_arg5) (V m c main_arg6)) := by
  show (cfg0.win 7).cut (grid0.coords t) ((dats m 0 c).after 7 t) = _
  rw [after0_7, Block.out_eq]
  funext y
  exact flushed_pt m c t y

/-- An index of the output array is in point `t`'s block iff each coordinate is in the block's range on its axis. -/
theorem mem_blk (t : Fin cfg0.N) (i : S4096x8x1376.Idx) :
    i ∈ ((cfg0.win 7).blk t).view.set ↔ ∀ a : Fin 3, win0_7.index t a * S128x8x1376.size a ≤ (i a).val ∧ (i a).val < win0_7.index t a * S128x8x1376.size a + S128x8x1376.size a := by
  show i ∈ ((View.whole main_v2).slice (win0_7.rect t)).set ↔ _
  rw [View.set_slice_whole, Rect.mem_set_unit]
  exact Iff.rfl

/-- Row `r` of the output array lies in the block of grid point `r / 128`. -/
theorem cover (i : S4096x8x1376.Idx) : ∃ t : Fin cfg0.N, (cfg0.win 7).flush t = true ∧ i ∈ ((cfg0.win 7).blk t).view.set := by
  have hi0 : (i 0).val < 4096 := (i 0).isLt
  have hi1 : (i 1).val < 8 := (i 1).isLt
  have hi2 : (i 2).val < 1376 := (i 2).isLt
  obtain ⟨t, ht⟩ : ∃ t : Fin cfg0.N, t.val = (i 0).val / 128 := ⟨⟨(i 0).val / 128, by rw [show cfg0.N = 32 from N_0]; omega⟩, rfl⟩
  obtain ⟨e71, e72, e00, e01, e10, e11, e20, e21, e22, e30, e31, e40, e41, e50, e51, e60, e61, e7t⟩ := idx_facts t
  refine ⟨t, flush0_7 t, ?_⟩
  rw [mem_blk]
  intro a
  match a with
  | ⟨0, _⟩ => show win0_7.index t (0 : Fin 3) * 128 ≤ (i 0).val ∧ (i 0).val < win0_7.index t (0 : Fin 3) * 128 + 128; omega
  | ⟨1, _⟩ => show win0_7.index t (1 : Fin 3) * 8 ≤ (i 1).val ∧ (i 1).val < win0_7.index t (1 : Fin 3) * 8 + 8; omega
  | ⟨2, _⟩ => show win0_7.index t (2 : Fin 3) * 1376 ≤ (i 2).val ∧ (i 2).val < win0_7.index t (2 : Fin 3) * 1376 + 1376; omega

/-- The output array after the region: the phase-major matrix of the arrays the region found. -/
theorem final (c : Dev nD) : (dats m 0 c).arrAt 7 cfg0.N
    = planes (V m c main_arg0) (V m c main_arg1) (V m c main_v1) (V m c main_arg3) (V m c main_arg4) (V m c main_arg5) (V m c main_arg6) :=
  (dats m 0 c).arrAt_eq_of_cover 7 _ (fun t _ => flushed_eq m c t) (fun i => cover i)

end Cert.KernelIdeal.Planes

end
-- ==== Proof.KTail.lean ====
/-
  The host lines around the region, and the kernel program's result as the matrix `G` of its arguments.

  Before the region the outlier integers `[4096, 11008]` are split into byte column and phase, `[4096, 1376, 8]`, and the
  last two axes are exchanged: the region finds them phase-major, entry `(o, b, c)` being the integer of column
  `c · 8 + b` of row `o`. The region leaves the phase-major matrix `planes` of that array and the other six arguments.
  After the region the last two axes are exchanged back and merged, so entry `(o, j)` of the result is entry
  `(o, j % 8, j / 8)` of `planes`, whose outlier integer is that of column `(j / 8) · 8 + j % 8 = j`: the element is
  `cell` of byte column `j / 8`, phase `j % 8`, the outlier integer `(o, j)` and row `o`'s floats, which is `G`.
-/
import proofs.«414587_j68539088109781_2_alg».proof.Proof.KFinal
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.BitPlanes Cert.KernelIdeal.Planes

variable {F : FTy → Type} [FloatOps F]
variable (m : (ℓ : Loc nD τ sig) → Buf (Elt F) ℓ) (ρ : Dev nD → PrngReg)

/-! ## The layout operations of the host lines, read at an index -/

/-- Merging byte column and phase: the flat array at `(o, j)` is the rank-3 array at `(o, j / 8, j % 8)`. -/
theorem merge_apply {α : Type} (x : S4096x1376x8.Idx → α) (h : S4096x1376x8.ShapeCasts S4096x11008) (o : Fin 4096) (j : Fin 11008) :
    shapeCast S4096x11008 x h (ix2 o j) = x (ix3 o (byteCol j) (phase j)) :=
  shapeCast_apply x h (ix2 o j) (ix3 o (byteCol j) (phase j)) (by
    rw [Shape.rowMajor_val_three, Shape.rowMajor_val_two]
    show (o.val * 1376 + (byteCol j).val) * 8 + (phase j).val = o.val * 11008 + j.val
    have := col_split j
    omega)

/-- Splitting them: the rank-3 array at `(o, j / 8, j % 8)` is the flat array at `(o, j)`. -/
theorem split_apply {α : Type} (x : S4096x11008.Idx → α) (h : S4096x11008.ShapeCasts S4096x1376x8) (o : Fin 4096) (j : Fin 11008) :
    shapeCast S4096x1376x8 x h (ix3 o (byteCol j) (phase j)) = x (ix2 o j) :=
  shapeCast_apply x h (ix3 o (byteCol j) (phase j)) (ix2 o j) (by
    rw [Shape.rowMajor_val_three, Shape.rowMajor_val_two]
    show o.val * 11008 + j.val = (o.val * 1376 + (byteCol j).val) * 8 + (phase j).val
    have := col_split j
    omega)

/-- Exchanging the last two axes, to phase-major. -/
theorem toPhaseMajor_apply {α : Type} (x : S4096x1376x8.Idx → α) (h : S4096x1376x8.Transposes [0, 2, 1] S4096x8x1376)
    (o : Fin 4096) (b : Fin 8) (c : Fin 1376) :
    transpose S4096x8x1376 [0, 2, 1] x h (ix3 o b c) = x (ix3 o c b) :=
  transpose_apply [0, 2, 1] x h (ix3 o b c) (ix3 o c b) (fun a => by
    match a with
    | ⟨0, _⟩ => rfl
    | ⟨1, _⟩ => rfl
    | ⟨2, _⟩ => rfl)

/-- And back. -/
theorem fromPhaseMajor_apply {α : Type} (x : S4096x8x1376.Idx → α) (h : S4096x8x1376.Transposes [0, 2, 1] S4096x1376x8)
    (o : Fin 4096) (c : Fin 1376) (b : Fin 8) :
    transpose S4096x1376x8 [0, 2, 1] x h (ix3 o c b) = x (ix3 o b c) :=
  transpose_apply [0, 2, 1] x h (ix3 o c b) (ix3 o b c) (fun a => by
    match a with
    | ⟨0, _⟩ => rfl
    | ⟨1, _⟩ => rfl
    | ⟨2, _⟩ => rfl)

/-! ## The host lines -/

/-- The outlier integers as the region finds them. -/
theorem V_main_v1 (c : Dev nD) :
    (V m c main_v1 : S4096x8x1376.Idx → Elt F .i32)
      = transpose S4096x8x1376 [0, 2, 1]
          (shapeCast S4096x1376x8 (m ((c : Thread nD τ).loc main_arg2) : S4096x11008.Idx → Elt F .i32) shapeCasts_S4096x11008_S4096x1376x8)
          transposes_S4096x1376x8_S4096x8x1376_0_2_1 := by
  show StableHlo.after hostOps0 (fun b => m (c, b)) (Proc.devRef .tc main_v1) = _
  after_results
  rfl

/-- The result buffer after the lines that follow the region. -/
theorem tail_result (c : Dev nD) :
    (Pipeline.afterTail₀ cfgs (dats m) 0 (V0 m) [hostOps1] c main_v4 : S4096x11008.Idx → Elt F .f32)
      = shapeCast S4096x11008
          (transpose S4096x1376x8 [0, 2, 1] ((dats m 0 c).arrAt 7 cfg0.N : S4096x8x1376.Idx → Elt F .f32) transposes_S4096x8x1376_S4096x1376x8_0_2_1)
          shapeCasts_S4096x1376x8_S4096x11008 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.devRef .tc main_v2)
      = (dats m 0 c).arrAt 7 cfg0.N :=
    Pipeline.withArrays_arr spec0 launch0.win.arr_inj c _ _ 7
  rw [h]
  rfl

/-! ## The result -/

/-- The kernel program's result is `G` of its arguments' launch contents. -/
theorem result_eq (c : Dev nD) :
    (Pipeline.afterTail₀ cfgs (dats m) 0 (V0 m) [hostOps1] c main_v4 : S4096x11008.Idx → Elt F .f32)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_result, final]
  funext i
  obtain ⟨o, j, rfl⟩ : ∃ (o : Fin 4096) (j : Fin 11008), i = ix2 o j := ⟨i 0, i 1, eq_ix2 i⟩
  rw [merge_apply, fromPhaseMajor_apply, G_apply]
  show cell (V m c main_arg0 (ix2 o (byteCol j))) (V m c main_arg1 (ix2 o (byteCol j))) (phase j)
      (V m c main_v1 (ix3 o (phase j) (byteCol j)))
      (V m c main_arg3 (ix2 o 0)) (V m c main_arg4 (ix2 o 0)) (V m c main_arg5 (ix2 o 0)) (V m c main_arg6 (ix2 o 0)) = _
  rw [V_main_arg0, V_main_arg1, V_main_arg3, V_main_arg4, V_main_arg5, V_main_arg6, V_main_v1, toPhaseMajor_apply, split_apply]
  rfl

/-- From any memory with zero counters, every weakly fair execution of the kernel program terminates with its result
    buffer at `G` of the seven arguments' launch contents and every argument unchanged. -/
theorem run : θ_run (defs (F := F)) (onTc (τ := τ) (main (F := F))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Tail

end
-- ==== Proof.RefRun.lean ====
/-
  The reference program as a straight line, and what it leaves in its result buffer.

  The reference has no kernel: its entry function is forty-two host operations run in order, three of them the
  body of the first outlined select (two scalar broadcasts and the select) and one the body of the second, each
  listed where it is called, over the buffers that call owns. A straight line of operations each of which writes
  one buffer of its own and reads buffers written earlier ends, whatever the interleaving, with every buffer at
  the composition of the operations along its dependencies; the arguments are written by no operation and keep
  their launch contents.

  The composed term at the result is `refTerm`. With `planeBits x` the flat array of the bits of `x`'s bytes
  (each byte repeated along a new last axis of length eight, shifted right arithmetically by the table
  7, 6, …, 0 spread along that axis, masked with 1, and the last two axes then merged in row-major order), it is

    select (planeBits mask ≠ 0)
      (select (planeBits comp = 0) (−1) (+1) · rows binary_scale + rows mean)
      (rows salient_scale · (float salient − rows salient_zero))

  where `rows v` repeats the one column of `v` along each row, the constants are scalars spread over the whole
  array, and every arithmetic operation is elementwise and taken in the order written.
-/
import proofs.«414587_j68539088109781_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's forty-two operations, in order; the two outlined selects' bodies stand at their calls. -/
abbrev ops : List (HloOp τ sig (Elt F)) :=
  [ nullary main_c (fun i => lit0 (S8.rowMajor i)),
    unary main_arg0 main_v0 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_c main_v1 (broadcastInDim S1x1x8 ![2] bcast_S8_S1x1x8_2 : (⟨S8, .i32⟩ : BufTy).Contents (Elt F) → (⟨S1x1x8, .i32⟩ : BufTy).Contents (Elt F)),
    unary main_v0 main_v2 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v1 main_v3 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v2 main_v3 main_v4 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_0 (constantI S_ 32 1#32),
    unary main_c_0 main_v5 (broadcastInDim S4096x1376x8 ![] bcast_S_S4096x1376x8 : (⟨S_, .i32⟩ : BufTy).Contents (Elt F) → (⟨S4096x1376x8, .i32⟩ : BufTy).Contents (Elt F)),
    binary main_v4 main_v5 main_v6 (andi : (⟨S4096x1376x8, .i32⟩ : BufTy).Contents (Elt F) → (⟨S4096x1376x8, .i32⟩ : BufTy).Contents (Elt F) → (⟨S4096x1376x8, .i32⟩ : BufTy).Contents (Elt F)),
    reshape main_v6 main_v7 rfl shapeCasts_S4096x1376x8_S4096x11008,
    nullary main_c_1 (constantI S_ 32 0#32),
    unary main_c_1 main_v8 (broadcastInDim S4096x11008 ![] bcast_S_S4096x11008 : (⟨S_, .i32⟩ : BufTy).Contents (Elt F) → (⟨S4096x11008, .i32⟩ : BufTy).Contents (Elt F)),
    binary main_v7 main_v8 main_v9 (cmpi .eq : (⟨S4096x11008, .i32⟩ : BufTy).Contents (Elt F) → (⟨S4096x11008, .i32⟩ : BufTy).Contents (Elt F) → (⟨S4096x11008, .i1⟩ : BufTy).Contents (Elt F)),
    nullary main_cst (constant S_ .f32 0xBF800000#32),
    nullary main_cst_2 (constant S_ .f32 0x3F800000#32),
    TRef.unary (TRef.of main_cst : TRef sig ⟨S_, .f32⟩) main_call0.v0 (broadcastInDim S4096x11008 ![] bcast_S_S4096x11008),
    TRef.unary (TRef.of main_cst_2 : TRef sig ⟨S_, .f32⟩) main_call0.v1 (broadcastInDim S4096x11008 ![] bcast_S_S4096x11008),
    TRef.ternary (TRef.of main_v9 : TRef sig ⟨S4096x11008, .i1⟩) main_call0.v0 main_call0.v1 main_call0.v2 select,
    unary main_v10 main_v11 (id : (⟨S4096x11008, .f32⟩ : BufTy).Contents (Elt F) → (⟨S4096x11008, .f32⟩ : BufTy).Contents (Elt F)),
    unary main_arg3 main_v12 (broadcastInDim S4096x11008 ![0, 1] bcast_S4096x1_S4096x11008_0_1 : (⟨S4096x1, .f32⟩ : BufTy).Contents (Elt F) → (⟨S4096x11008, .f32⟩ : BufTy).Contents (Elt F)),
    binary main_v11 main_v12 main_v13 (mulf : (⟨S4096x11008, .f32⟩ : BufTy).Contents (Elt F) → (⟨S4096x11008, .f32⟩ : BufTy).Contents (Elt F) → (⟨S4096x11008, .f32⟩ : BufTy).Contents (Elt F)),
    unary main_arg4 main_v14 (broadcastInDim S4096x11008 ![0, 1] bcast_S4096x1_S4096x11008_0_1 : (⟨S4096x1, .f32⟩ : BufTy).Contents (Elt F) → (⟨S4096x11008, .f32⟩ : BufTy).Contents (Elt F)),
    binary main_v13 main_v14 main_v15 (addf : (⟨S4096x11008, .f32⟩ : BufTy).Contents (Elt F) → (⟨S4096x11008, .f32⟩ : BufTy).Contents (Elt F) → (⟨S4096x11008, .f32⟩ : BufTy).Contents (Elt F)),
    unary main_arg2 main_v16 (sitofp .f32 : (⟨S4096x11008, .i32⟩ : BufTy).Contents (Elt F) → (⟨S4096x11008, .f32⟩ : BufTy).Contents (Elt F)),
    unary main_arg6 main_v17 (broadcastInDim S4096x11008 ![0, 1] bcast_S4096x1_S4096x11008_0_1 : (⟨S4096x1, .f32⟩ : BufTy).Contents (Elt F) → (⟨S4096x11008, .f32⟩ : BufTy).Contents (Elt F)),
    binary main_v16 main_v17 main_v18 (subf : (⟨S4096x11008, .f32⟩ : BufTy).Contents (Elt F) → (⟨S4096x11008, .f32⟩ : BufTy).Contents (Elt F) → (⟨S4096x11008, .f32⟩ : BufTy).Contents (Elt F)),
    unary main_arg5 main_v19 (broadcastInDim S4096x11008 ![0, 1] bcast_S4096x1_S4096x11008_0_1 : (⟨S4096x1, .f32⟩ : BufTy).Contents (Elt F) → (⟨S4096x11008, .f32⟩ : BufTy).Contents (Elt F)),
    binary main_v19 main_v18 main_v20 (mulf : (⟨S4096x11008, .f32⟩ : BufTy).Contents (Elt F) → (⟨S4096x11008, .f32⟩ : BufTy).Contents (Elt F) → (⟨S4096x11008, .f32⟩ : BufTy).Contents (Elt F)),
    unary main_arg1 main_v21 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_c main_v22 (broadcastInDim S1x1x8 ![2] bcast_S8_S1x1x8_2 : (⟨S8, .i32⟩ : BufTy).Contents (Elt F) → (⟨S1x1x8, .i32⟩ : BufTy).Contents (Elt F)),
    unary main_v21 main_v23 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v22 main_v24 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v23 main_v24 main_v25 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_3 (constantI S_ 32 1#32),
    unary main_c_3 main_v26 (broadcastInDim S4096x1376x8 ![] bcast_S_S4096x1376x8 : (⟨S_, .i32⟩ : BufTy).Contents (Elt F) → (⟨S4096x1376x8, .i32⟩ : BufTy).Contents (Elt F)),
    binary main_v25 main_v26 main_v27 (andi : (⟨S4096x1376x8, .i32⟩ : BufTy).Contents (Elt F) → (⟨S4096x1376x8, .i32⟩ : BufTy).Contents (Elt F) → (⟨S4096x1376x8, .i32⟩ : BufTy).Contents (Elt F)),
    reshape main_v27 main_v28 rfl shapeCasts_S4096x1376x8_S4096x11008,
    nullary main_c_4 (constantI S_ 32 0#32),
    unary main_c_4 main_v29 (broadcastInDim S4096x11008 ![] bcast_S_S4096x11008 : (⟨S_, .i32⟩ : BufTy).Contents (Elt F) → (⟨S4096x11008, .i32⟩ : BufTy).Contents (Elt F)),
    binary main_v28 main_v29 main_v30 (cmpi .ne : (⟨S4096x11008, .i32⟩ : BufTy).Contents (Elt F) → (⟨S4096x11008, .i32⟩ : BufTy).Contents (Elt F) → (⟨S4096x11008, .i1⟩ : BufTy).Contents (Elt F)),
    unary main_v30 main_v31 (id : (⟨S4096x11008, .i1⟩ : BufTy).Contents (Elt F) → (⟨S4096x11008, .i1⟩ : BufTy).Contents (Elt F)),
    TRef.ternary (TRef.of main_v31 : TRef sig ⟨S4096x11008, .i1⟩) (TRef.of main_v15 : TRef sig ⟨S4096x11008, .f32⟩) (TRef.of main_v20 : TRef sig ⟨S4096x11008, .f32⟩) main_call1.v0 select ]

-- forty-two binds re-associated, one recursion of the rewriter per statement
set_option maxRecDepth 1024 in
/-- The entry function is that straight line: the two callees unfolded at their calls, sequencing re-associated. -/
theorem main_eq (c : Dev nD) : main (F := F) c = seq ops := by
  simp only [main, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., binary_bufs_sub .., unary_bufs_sub .., ternary_bufs_sub ..⟩

/-- The flat array of bit-phases of a packed array: entry `(o, c, b)` of the rank-3 array is bit `7 - b` of byte
    `(o, c)`, as the word 0 or 1; the flat array is the rank-3 one with its last two axes merged. -/
def planeBits (x : IVec S4096x1376 32) : IVec S4096x11008 32 :=
  shapeCast S4096x11008
    (andi
      (Host.shrsi
        (broadcastInDim S4096x1376x8 ![0, 1, 2] bcast_S4096x1376x1_S4096x1376x8_0_1_2
          (broadcastInDim S4096x1376x1 ![0, 1] bcast_S4096x1376_S4096x1376x1_0_1 x))
        (broadcastInDim S4096x1376x8 ![0, 1, 2] bcast_S1x1x8_S4096x1376x8_0_1_2
          (broadcastInDim S1x1x8 ![2] bcast_S8_S1x1x8_2 (fun i : S8.Idx => lit0 (S8.rowMajor i)))))
      (broadcastInDim S4096x1376x8 ![] bcast_S_S4096x1376x8 (constantI S_ 32 1#32)))
    shapeCasts_S4096x1376x8_S4096x11008

/-- A scalar integer spread over the whole flat array. -/
def fullI (b : BitVec 32) : IVec S4096x11008 32 :=
  broadcastInDim S4096x11008 ![] bcast_S_S4096x11008 (constantI S_ 32 b)

/-- A scalar float, given by its bit pattern, spread over the whole flat array. -/
def fullF (b : BitVec 32) : FVec F S4096x11008 .f32 :=
  broadcastInDim S4096x11008 ![] bcast_S_S4096x11008 (constant S_ .f32 b)

/-- A one-column array repeated along each row. -/
def rows (v : FVec F S4096x1 .f32) : FVec F S4096x11008 .f32 :=
  broadcastInDim S4096x11008 ![0, 1] bcast_S4096x1_S4096x11008_0_1 v

/-- The whole-array term the straight line leaves in its result buffer, as a function of the seven arguments. -/
def refTerm (comp mask : IVec S4096x1376 32) (sal : IVec S4096x11008 32) (bs mean ss sz : FVec F S4096x1 .f32) :
    FVec F S4096x11008 .f32 :=
  select (cmpi .ne (planeBits mask) (fullI 0#32))
    (addf (mulf (select (cmpi .eq (planeBits comp) (fullI 0#32)) (fullF 0xBF800000#32) (fullF 0x3F800000#32)) (rows bs))
      (rows mean))
    (mulf (rows ss) (subf (sitofp .f32 sal) (rows sz)))

set_option maxRecDepth 8192 in
/-- The fold at the result buffer is `refTerm` of the fold's starting contents at the seven arguments: each
    operation's result is read at the buffer it writes and passed over at every other, down to the arguments. -/
theorem out_eq (V : Valuation τ sig (Elt F)) :
    after ops V (main_v32 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-- No operation writes argument 0. -/
theorem arg0_eq (V : Valuation τ sig (Elt F)) :
    after ops V (main_arg0 : DevRef τ sig) = V (main_arg0 : DevRef τ sig) := by
  after_results_simp

/-- No operation writes argument 1. -/
theorem arg1_eq (V : Valuation τ sig (Elt F)) :
    after ops V (main_arg1 : DevRef τ sig) = V (main_arg1 : DevRef τ sig) := by
  after_results_simp

/-- No operation writes argument 2. -/
theorem arg2_eq (V : Valuation τ sig (Elt F)) :
    after ops V (main_arg2 : DevRef τ sig) = V (main_arg2 : DevRef τ sig) := by
  after_results_simp

/-- No operation writes argument 3. -/
theorem arg3_eq (V : Valuation τ sig (Elt F)) :
    after ops V (main_arg3 : DevRef τ sig) = V (main_arg3 : DevRef τ sig) := by
  after_results_simp

/-- No operation writes argument 4. -/
theorem arg4_eq (V : Valuation τ sig (Elt F)) :
    after ops V (main_arg4 : DevRef τ sig) = V (main_arg4 : DevRef τ sig) := by
  after_results_simp

/-- No operation writes argument 5. -/
theorem arg5_eq (V : Valuation τ sig (Elt F)) :
    after ops V (main_arg5 : DevRef τ sig) = V (main_arg5 : DevRef τ sig) := by
  after_results_simp

/-- No operation writes argument 6. -/
theorem arg6_eq (V : Valuation τ sig (Elt F)) :
    after ops V (main_arg6 : DevRef τ sig) = V (main_arg6 : DevRef τ sig) := by
  after_results_simp

/-- From any memory with zero counters, for any float values: every weakly fair execution of the entry function
    terminates, and every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same read at the result and at the arguments: the result holds `refTerm` of the arguments' launch
    contents, and each argument holds what it held. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v32)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v32).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.HandRun

end
-- ==== Proof.RefValue.lean ====
/-
  The reference's result is the matrix `G` of the seven arguments.

  `refTerm` is built from elementwise operations and layout operations only, so it is compared with `G` one
  element at a time. At row `o`, column `j`:

  * an elementwise operation reads its operands at `(o, j)`;
  * a scalar spread over the array reads the scalar; a one-column array repeated along rows reads row `o` of it;
  * the flat bit array reads the rank-3 bit array at the index with the same row-major position. The rank-3
    array has rows of `1376 · 8` entries and the flat one rows of `11008`, so `(o, j)` and `(o, c, b)` have the
    same position exactly when `c · 8 + b = j`, that is `c = j / 8` (the byte column) and `b = j % 8` (the
    bit-phase). There the byte, repeated along the last axis, reads `x (o, c)`; the shift table, repeated along the
    first two axes, reads its entry `b`, which is `7 - b`; so the entry is `(x (o, c) >>ₛ (7 - b)) & 1`.

  Put together, the element is `cell` of the packed byte, the mask byte, the phase, the outlier integer and the row's
  four floats, which is the definition of `G`. No property of the float operations is used: the two sides are the
  same term, for any reading of the floats.
-/
import proofs.«414587_j68539088109781_2_alg».proof.Proof.RefRun
import proofs.«414587_j68539088109781_2_alg».proof.Proof.Spec
import Idealize.ShloMosaic.Lib.Pipeline.Value

noncomputable section

namespace Cert.ReferenceIdeal.RefValue

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx
open Cert.BitPlanes (shiftOf bitAt cell byteCol phase elt G G_apply col_split)

variable {F : FTy → Type} [FloatOps F]

/-! ## The layout operations at an index -/

/-- A scalar spread over the flat array reads the scalar. -/
theorem fullScalar_apply {α : Type} (x : S_.Idx → α) (o : Fin 4096) (j : Fin 11008) :
    broadcastInDim S4096x11008 ![] bcast_S_S4096x11008 x (ix2 o j) = x ix0 :=
  broadcastInDim_apply _ _ x (ix2 o j) ix0 (fun a => a.elim0)

/-- A scalar spread over the rank-3 array reads the scalar. -/
theorem fullScalar3_apply {α : Type} (x : S_.Idx → α) (o : Fin 4096) (c : Fin 1376) (b : Fin 8) :
    broadcastInDim S4096x1376x8 ![] bcast_S_S4096x1376x8 x (ix3 o c b) = x ix0 :=
  broadcastInDim_apply _ _ x (ix3 o c b) ix0 (fun a => a.elim0)

/-- A one-column array repeated along rows reads its row. -/
theorem rowsBcast_apply {α : Type} (x : S4096x1.Idx → α) (o : Fin 4096) (j : Fin 11008) :
    broadcastInDim S4096x11008 ![0, 1] bcast_S4096x1_S4096x11008_0_1 x (ix2 o j) = x (ix2 o 0) :=
  broadcastInDim_apply _ _ x (ix2 o j) (ix2 o 0) (fun a => by
    match a with
    | ⟨0, _⟩ => rfl
    | ⟨1, _⟩ => rfl)

/-- A matrix given a unit last axis reads the matrix. -/
theorem addUnit_apply {α : Type} (x : S4096x1376.Idx → α) (o : Fin 4096) (c : Fin 1376) (u : Fin 1) :
    broadcastInDim S4096x1376x1 ![0, 1] bcast_S4096x1376_S4096x1376x1_0_1 x (ix3 o c u) = x (ix2 o c) :=
  broadcastInDim_apply _ _ x (ix3 o c u) (ix2 o c) (fun a => by
    match a with
    | ⟨0, _⟩ => rfl
    | ⟨1, _⟩ => rfl)

/-- The unit last axis repeated eight times reads the unit entry. -/
theorem repeatLast_apply {α : Type} (x : S4096x1376x1.Idx → α) (o : Fin 4096) (c : Fin 1376) (b : Fin 8) :
    broadcastInDim S4096x1376x8 ![0, 1, 2] bcast_S4096x1376x1_S4096x1376x8_0_1_2 x (ix3 o c b) = x (ix3 o c 0) :=
  broadcastInDim_apply _ _ x (ix3 o c b) (ix3 o c 0) (fun a => by
    match a with
    | ⟨0, _⟩ => rfl
    | ⟨1, _⟩ => rfl
    | ⟨2, _⟩ => rfl)

/-- A row of eight repeated along the first two axes reads its entry. -/
theorem repeatFirst_apply {α : Type} (x : S1x1x8.Idx → α) (o : Fin 4096) (c : Fin 1376) (b : Fin 8) :
    broadcastInDim S4096x1376x8 ![0, 1, 2] bcast_S1x1x8_S4096x1376x8_0_1_2 x (ix3 o c b) = x (ix3 0 0 b) :=
  broadcastInDim_apply _ _ x (ix3 o c b) (ix3 0 0 b) (fun a => by
    match a with
    | ⟨0, _⟩ => rfl
    | ⟨1, _⟩ => rfl
    | ⟨2, _⟩ => rfl)

/-- A vector of eight given two unit leading axes reads the vector. -/
theorem addUnits_apply {α : Type} (x : S8.Idx → α) (u v : Fin 1) (b : Fin 8) :
    broadcastInDim S1x1x8 ![2] bcast_S8_S1x1x8_2 x (ix3 u v b) = x (ix1 b) :=
  broadcastInDim_apply _ _ x (ix3 u v b) (ix1 b) (fun a => by
    match a with
    | ⟨0, _⟩ => rfl)

/-- Merging the last two axes: the flat array at `(o, j)` is the rank-3 array at `(o, j / 8, j % 8)`, the index with
    the same row-major position. -/
theorem mergeLast_apply {α : Type} (x : S4096x1376x8.Idx → α) (o : Fin 4096) (j : Fin 11008) :
    shapeCast S4096x11008 x shapeCasts_S4096x1376x8_S4096x11008 (ix2 o j) = x (ix3 o (byteCol j) (phase j)) :=
  shapeCast_apply x _ (ix2 o j) (ix3 o (byteCol j) (phase j)) (by
    rw [Shape.rowMajor_val_three, Shape.rowMajor_val_two]
    show (o.val * 1376 + (byteCol j).val) * 8 + (phase j).val = o.val * 11008 + j.val
    have := col_split j
    omega)

/-- The shift table's entries are the shifts of the bit-phases. -/
theorem table_eq : ∀ b : Fin 8, lit0 b = shiftOf b := by decide

/-- The table's buffer at entry `b` holds the shift of phase `b`. -/
theorem tableBuf_apply (b : Fin 8) : lit0 (S8.rowMajor (ix1 b)) = shiftOf b := by
  have hb : S8.rowMajor (ix1 b) = b := Fin.ext (Shape.rowMajor_val_one (ix1 b))
  rw [hb, table_eq]

/-! ## The pieces of the term at an index -/

/-- The flat bit array at `(o, j)` is the bit of phase `j % 8` of byte `(o, j / 8)`. -/
theorem planeBits_apply (x : IVec S4096x1376 32) (o : Fin 4096) (j : Fin 11008) :
    planeBits x (ix2 o j) = bitAt (x (ix2 o (byteCol j))) (phase j) := by
  unfold planeBits
  rw [mergeLast_apply]
  show IntOp.andi (IntOp.shrsi .host
      (broadcastInDim S4096x1376x8 ![0, 1, 2] bcast_S4096x1376x1_S4096x1376x8_0_1_2
        (broadcastInDim S4096x1376x1 ![0, 1] bcast_S4096x1376_S4096x1376x1_0_1 x) (ix3 o (byteCol j) (phase j)))
      (broadcastInDim S4096x1376x8 ![0, 1, 2] bcast_S1x1x8_S4096x1376x8_0_1_2
        (broadcastInDim S1x1x8 ![2] bcast_S8_S1x1x8_2 (fun i : S8.Idx => lit0 (S8.rowMajor i))) (ix3 o (byteCol j) (phase j))))
      (broadcastInDim S4096x1376x8 ![] bcast_S_S4096x1376x8 (constantI S_ 32 1#32) (ix3 o (byteCol j) (phase j)))
    = bitAt (x (ix2 o (byteCol j))) (phase j)
  rw [repeatLast_apply, addUnit_apply, repeatFirst_apply, addUnits_apply, tableBuf_apply, fullScalar3_apply]
  rfl

theorem fullI_apply (w : BitVec 32) (o : Fin 4096) (j : Fin 11008) : fullI w (ix2 o j) = w := by
  unfold fullI
  rw [fullScalar_apply]
  rfl

theorem fullF_apply (w : BitVec 32) (o : Fin 4096) (j : Fin 11008) :
    fullF (F := F) w (ix2 o j) = FloatOps.ofBits .f32 w := by
  unfold fullF
  rw [fullScalar_apply]
  rfl

theorem rows_apply (v : FVec F S4096x1 .f32) (o : Fin 4096) (j : Fin 11008) : rows v (ix2 o j) = v (ix2 o 0) := by
  unfold rows
  rw [rowsBcast_apply]

/-! ## The whole term -/

/-- The reference's term is `G`: element by element both are `cell` of the same byte, mask byte, phase, outlier
    integer and row scalars. -/
theorem refTerm_eq (comp mask : IVec S4096x1376 32) (sal : IVec S4096x11008 32) (bs mean ss sz : FVec F S4096x1 .f32) :
    refTerm comp mask sal bs mean ss sz = G comp mask sal bs mean ss sz := by
  funext i
  obtain ⟨o, j, rfl⟩ : ∃ (o : Fin 4096) (j : Fin 11008), i = ix2 o j := ⟨i 0, i 1, eq_ix2 i⟩
  rw [G_apply]
  show Scalar.select (IntOp.cmpi .ne (planeBits mask (ix2 o j)) (fullI 0#32 (ix2 o j)))
      (FloatOps.addf (FloatOps.mulf (Scalar.select (IntOp.cmpi .eq (planeBits comp (ix2 o j)) (fullI 0#32 (ix2 o j)))
        (fullF (F := F) 0xBF800000#32 (ix2 o j)) (fullF (F := F) 0x3F800000#32 (ix2 o j))) (rows bs (ix2 o j))) (rows mean (ix2 o j)))
      (FloatOps.mulf (rows ss (ix2 o j)) (FloatOps.subf (FloatOps.sitofp .f32 (sal (ix2 o j))) (rows sz (ix2 o j))))
    = elt comp mask sal bs mean ss sz o j
  rw [planeBits_apply, planeBits_apply, fullI_apply, fullF_apply, fullF_apply, rows_apply, rows_apply, rows_apply, rows_apply]
  rfl

/-! ## The run -/

/-- From any memory with zero counters, every weakly fair execution of the reference terminates with its result
    buffer at `G` of the seven arguments' launch contents and every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = Cert.BitPlanes.G (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1).trans (refTerm_eq _ _ _ _ _ _ _), (h c).2⟩) (HandRun.run m ρ)

end Cert.ReferenceIdeal.RefValue

end
-- ==== Proof.lean ====
/-
  A one-bit weight matrix with outliers, dequantised: the kernel against its array-language reference.

  Each row `o` of the `[4096, 11008]` result has a scale, a mean, an outlier scale and an outlier zero point. Column `j`
  belongs to byte column `j / 8` and to bit-phase `j % 8` (most significant bit first) of two packed arrays of bytes: where
  the mask's bit is set the weight is `±scale + mean`, the sign given by the packed weights' bit; where it is clear the
  weight is `outlier scale · (outlier integer − zero point)`. That function of the seven arguments is `Cert.BitPlanes.G`
  (Proof/Spec.lean), one element at a time `cell`.

  The reference spreads each byte along a new axis of eight shifts, masks, merges the axis into the columns and
  selects: its straight line of host operations ends with the result buffer at `G` (Proof/RefRun.lean, the run;
  Proof/RefValue.lean, its term read element by element).

  The kernel first lays the outlier integers out phase-major, `[4096, 8, 1376]`; a grid of 32 points each takes 128
  rows and writes, phase by phase, eight `[128, 1376]` slabs of a `[128, 8, 1376]` output block; the blocks tile the
  phase-major output, and the last two axes are exchanged back and merged. What one point leaves is one function of
  its input blocks (Proof/KBlock.lean); the blocks together are the phase-major matrix (Proof/KFinal.lean); read
  through the exchange and the merge it is `G` again (Proof/KTail.lean).

  Both programs apply the same float operations in the same order to the same operands, so the two results are
  the same term and no property of the extended reals, and no finiteness of the inputs, is used. The three frames:
  the two kernel programs' are the generated frame certificates; the reference's is its run with the result forgotten.
  The idealization rewrote nothing, so there is nothing to preserve.
-/
import proofs.«414587_j68539088109781_2_alg».proof.Defs
import proofs.«414587_j68539088109781_2_alg».proof.Proof.Gen.Kernel
import proofs.«414587_j68539088109781_2_alg».proof.Proof.Gen.Kernel.Skeleton
import proofs.«414587_j68539088109781_2_alg».proof.Proof.Gen.Kernel.Launch
import proofs.«414587_j68539088109781_2_alg».proof.Proof.Gen.Kernel.Points
import proofs.«414587_j68539088109781_2_alg».proof.Proof.Gen.Kernel.Frame
import proofs.«414587_j68539088109781_2_alg».proof.Proof.Gen.KernelIdeal
import proofs.«414587_j68539088109781_2_alg».proof.Proof.Gen.KernelIdeal.Skeleton
import proofs.«414587_j68539088109781_2_alg».proof.Proof.Gen.KernelIdeal.Launch
import proofs.«414587_j68539088109781_2_alg».proof.Proof.Gen.KernelIdeal.Points
import proofs.«414587_j68539088109781_2_alg».proof.Proof.Gen.KernelIdeal.Frame
import proofs.«414587_j68539088109781_2_alg».proof.Proof.Gen.ReferenceIdeal
import proofs.«414587_j68539088109781_2_alg».proof.Proof.Gen.Pre_finite_inputs
import proofs.«414587_j68539088109781_2_alg».proof.Proof.KTail
import proofs.«414587_j68539088109781_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.RefValue.run m ρ)

/-- The idealization is the kernel's own text read over the extended reals. -/
theorem preserves : Cert.preserves_Kernel_KernelIdeal := trivial

/-- From memories that agree on the seven arguments both programs end with their result at `G` of those arguments. -/
theorem algebraic : Cert.algebraic_KernelIdeal_ReferenceIdeal := by
  intro m ρ m' ρ' _ hagree
  refine ⟨_, Cert.KernelIdeal.Tail.run (F := Ideal) m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
